-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x128 : Shape := ⟨3, ![2048, 64, 128]⟩
abbrev S128x128 : Shape := ⟨2, ![128, 128]⟩
abbrev S128 : Shape := ⟨1, ![128]⟩
abbrev S10x16384 : Shape := ⟨2, ![10, 16384]⟩
abbrev S10 : Shape := ⟨1, ![10]⟩
abbrev S_ : Shape := ⟨0, ![]⟩

class Facts : Prop where
  bcast_S_S2048x64x128 : S_.BroadcastsInDim S2048x64x128 (![] : Fin 0 → Fin S2048x64x128.rank)
  reducesTo_S2048x64x128_S_d0_1_2 : S2048x64x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x16384 : S_.BroadcastsInDim S10x16384 (![] : Fin 0 → Fin S10x16384.rank)
  reducesTo_S10x16384_S_d0_1 : S10x16384.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10 .f32) (main_v13 : IVec S_ 1) (main_v16 : IVec S10x16384 1) : IVec S_ 1 :=
  let main_c_5 : IVec S_ 1 := constantI S_ 1 1#1
  let main_v17 : IVec S_ 1 := (fun x v => Host.reduce IntOp.andi x v reducesTo_S10x16384_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S2048x64x128 .f32) (main_arg1 : FVec F S128x128 .f32) (main_arg2 : FVec F S128 .f32) (main_arg3 : FVec F S10x16384 .f32) (main_arg4 : FVec F S10 .f32) : IVec S_ 1 :=
  let main_v0 : FVec F S2048x64x128 .f32 := Host.absf main_arg0
  let main_cst : FVec F S_ .f32 := constant S_ .f32 0x7F800000#32
  let main_v1 : FVec F S2048x64x128 .f32 := broadcastInDim S2048x64x128 ![] bcast_S_S2048x64x128 main_cst
  let main_v2 : IVec S2048x64x128 1 := cmpf .olt main_v0 main_v1
  let main_c : IVec S_ 1 := constantI S_ 1 1#1
  let main_v3 : IVec S_ 1 := (fun x v => Host.reduce IntOp.andi x v reducesTo_S2048x64x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S10x16384 .f32 := Host.absf main_arg3
  let main_cst_4 : FVec F S_ .f32 := constant S_ .f32 0x7F800000#32
  let main_v15 : FVec F S10x16384 .f32 := broadcastInDim S10x16384 ![] bcast_S_S10x16384 main_cst_4
  let main_v16 : IVec S10x16384 1 := cmpf .olt main_v14 main_v15
  fn_part1 (F := F) main_arg4 main_v13 main_v16
-- ==== Kernel.lean ====
abbrev S2048x64x128 : Shape := ⟨3, ![2048, 64, 128]⟩
abbrev S128x128 : Shape := ⟨2, ![128, 128]⟩
abbrev S128 : Shape := ⟨1, ![128]⟩
abbrev S10x16384 : Shape := ⟨2, ![10, 16384]⟩
abbrev S10 : Shape := ⟨1, ![10]⟩
abbrev S2048x10 : Shape := ⟨2, ![2048, 10]⟩
abbrev S64x64x128 : Shape := ⟨3, ![64, 64, 128]⟩
abbrev S64x10 : Shape := ⟨2, ![64, 10]⟩
abbrev S64x128x128 : Shape := ⟨3, ![64, 128, 128]⟩
abbrev S8192x128 : Shape := ⟨2, ![8192, 128]⟩
abbrev S1x128 : Shape := ⟨2, ![1, 128]⟩
abbrev S64x16384 : Shape := ⟨2, ![64, 16384]⟩
abbrev S1x10 : Shape := ⟨2, ![1, 10]⟩

abbrev nBuf : Space → Nat
  | .hbm => 6
  | .vmem => 8
  | .smem => 0
  | _ => 0

abbrev bufTy : (tb : Table) → Fin (tcTables nBuf tb) → BufTy
  | .hbm, ⟨0, _⟩ => ⟨S2048x64x128, .f32⟩
  | .hbm, ⟨1, _⟩ => ⟨S128x128, .f32⟩
  | .hbm, ⟨2, _⟩ => ⟨S128, .f32⟩
  | .hbm, ⟨3, _⟩ => ⟨S10x16384, .f32⟩
  | .hbm, ⟨4, _⟩ => ⟨S10, .f32⟩
  | .hbm, ⟨5, _⟩ => ⟨S2048x10, .f32⟩
  | .local _ .vmem, ⟨0, _⟩ => ⟨S64x64x128, .f32⟩
  | .local _ .vmem, ⟨1, _⟩ => ⟨S64x64x128, .f32⟩
  | .local _ .vmem, ⟨2, _⟩ => ⟨S128x128, .f32⟩
  | .local _ .vmem, ⟨3, _⟩ => ⟨S128, .f32⟩
  | .local _ .vmem, ⟨4, _⟩ => ⟨S10x16384, .f32⟩
  | .local _ .vmem, ⟨5, _⟩ => ⟨S10, .f32⟩
  | .local _ .vmem, ⟨6, _⟩ => ⟨S64x10, .f32⟩
  | .local _ .vmem, ⟨7, _⟩ => ⟨S64x10, .f32⟩
  | _, _ => ⟨S2048x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S64x64x128_S64x64x128_0_0_0 : ∀ a, (![0, 0, 0] : Fin 3 → Nat) a + S64x64x128.size a ≤ S64x64x128.size a
  h_S64x64x128 : 0 < S64x64x128.numel
  shapeCasts_S64x128x128_S8192x128 : S64x128x128.ShapeCasts S8192x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  shapeCasts_S8192x128_S64x128x128 : S8192x128.ShapeCasts S64x128x128
  shapeCasts_S64x128x128_S64x16384 : S64x128x128.ShapeCasts S64x16384
  inb_S10x16384_S10x16384_0_0 : ∀ a, (![0, 0] : Fin 2 → Nat) a + S10x16384.size a ≤ S10x16384.size a
  h_S10x16384 : 0 < S10x16384.numel
  inb_S10_S10_0 : ∀ a, (![0] : Fin 1 → Nat) a + S10.size a ≤ S10.size a
  h_S10 : 0 < S10.numel
  shapeCasts_S10_S1x10 : S10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  dot_S64x64x128_S64x64x128_S64x128x128_1_1_2_2_0_0_wf : DotDims.WF S64x64x128 S64x64x128 S64x128x128 [1] [1] [2] [2] [0] [0]
  dot_S8192x128_S128x128_S8192x128_1_1_0_0_n_n_wf : DotDims.WF S8192x128 S128x128 S8192x128 [1] [1] [0] [0] [] []
  dot_S64x128x128_S64x128x128_S64x128x128_1_1_2_2_0_0_wf : DotDims.WF S64x128x128 S64x128x128 S64x128x128 [1] [1] [2] [2] [0] [0]
  dot_S64x16384_S10x16384_S64x10_1_1_0_0_n_n_wf : DotDims.WF S64x16384 S10x16384 S64x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x128.size a ≤ S2048x64x128.size a
  hwx0_0 : ∀ i : grid0.Coords, EltTy.bits .f32 = 32 ∨ (Rect.block (s := S2048x64x128) S64x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x16384.size a ≤ S10x16384.size a
  hwx0_3 : ∀ i : grid0.Coords, EltTy.bits .f32 = 32 ∨ (Rect.block (s := S10x16384) S10x16384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10.size a ≤ S10.size a
  hwx0_4 : ∀ i : grid0.Coords, EltTy.bits .f32 = 32 ∨ (Rect.block (s := S10) S10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x10.size a ≤ S2048x10.size a
  hwx0_5 : ∀ i : grid0.Coords, EltTy.bits .f32 = 32 ∨ (Rect.block (s := S2048x10) S64x10.size (cc0_transform_5 i) (hinb0_5 i)).WholeWords (EltTy.packing .f32)

variable [Facts₀]

def dot_S64x64x128_S64x64x128_S64x128x128_1_1_2_2_0_0 : DotDims S64x64x128 S64x64x128 S64x128x128 where
  lhsContracting := [1]
  rhsContracting := [1]
  lhsNonContracting := [2]
  rhsNonContracting := [2]
  lhsBatch := [0]
  rhsBatch := [0]
  wf := dot_S64x64x128_S64x64x128_S64x128x128_1_1_2_2_0_0_wf
def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf
def dot_S64x128x128_S64x128x128_S64x128x128_1_1_2_2_0_0 : DotDims S64x128x128 S64x128x128 S64x128x128 where
  lhsContracting := [1]
  rhsContracting := [1]
  lhsNonContracting := [2]
  rhsNonContracting := [2]
  lhsBatch := [0]
  rhsBatch := [0]
  wf := dot_S64x128x128_S64x128x128_S64x128x128_1_1_2_2_0_0_wf
def dot_S64x16384_S10x16384_S64x10_1_1_0_0_n_n : DotDims S64x16384 S10x16384 S64x10 where
  lhsContracting := [1]
  rhsContracting := [1]
  lhsNonContracting := [0]
  rhsNonContracting := [0]
  lhsBatch := []
  rhsBatch := []
  wf := dot_S64x16384_S10x16384_S64x10_1_1_0_0_n_n_wf

abbrev win0_0 : Pipeline.Window sig grid0 :=
  Pipeline.Window.ofSpec (Memref.whole main_arg0) S64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x16384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x64x128 : Shape := ⟨3, ![2048, 64, 128]⟩
abbrev S128x128 : Shape := ⟨2, ![128, 128]⟩
abbrev S128 : Shape := ⟨1, ![128]⟩
abbrev S10x16384 : Shape := ⟨2, ![10, 16384]⟩
abbrev S10 : Shape := ⟨1, ![10]⟩
abbrev S2048x128x128 : Shape := ⟨3, ![2048, 128, 128]⟩
abbrev S_ : Shape := ⟨0, ![]⟩
abbrev S1x1x128 : Shape := ⟨3, ![1, 1, 128]⟩
abbrev S2048x16384 : Shape := ⟨2, ![2048, 16384]⟩
abbrev S16384x10 : Shape := ⟨2, ![16384, 10]⟩
abbrev S2048x10 : Shape := ⟨2, ![2048, 10]⟩
abbrev S1x10 : Shape := ⟨2, ![1, 10]⟩

abbrev nBuf : Space → Nat
  | .hbm => 24
  | .vmem => 0
  | .smem => 0
  | _ => 0

abbrev bufTy : (tb : Table) → Fin (tcTables nBuf tb) → BufTy
  | .hbm, ⟨0, _⟩ => ⟨S2048x64x128, .f32⟩
  | .hbm, ⟨1, _⟩ => ⟨S128x128, .f32⟩
  | .hbm, ⟨2, _⟩ => ⟨S128, .f32⟩
  | .hbm, ⟨3, _⟩ => ⟨S10x16384, .f32⟩
  | .hbm, ⟨4, _⟩ => ⟨S10, .f32⟩
  | .hbm, ⟨5, _⟩ => ⟨S2048x128x128, .f32⟩
  | .hbm, ⟨6, _⟩ => ⟨S_, .f32⟩
  | .hbm, ⟨7, _⟩ => ⟨S2048x128x128, .f32⟩
  | .hbm, ⟨8, _⟩ => ⟨S2048x128x128, .f32⟩
  | .hbm, ⟨9, _⟩ => ⟨S2048x128x128, .f32⟩
  | .hbm, ⟨10, _⟩ => ⟨S_, .f32⟩
  | .hbm, ⟨11, _⟩ => ⟨S2048x128x128, .f32⟩
  | .hbm, ⟨12, _⟩ => ⟨S2048x128x128, .f32⟩
  | .hbm, ⟨13, _⟩ => ⟨S2048x128x128, .f32⟩
  | .hbm, ⟨14, _⟩ => ⟨S1x1x128, .f32⟩
  | .hbm, ⟨15, _⟩ => ⟨S2048x128x128, .f32⟩
  | .hbm, ⟨16, _⟩ => ⟨S2048x128x128, .f32⟩
  | .hbm, ⟨17, _⟩ => ⟨S2048x128x128, .f32⟩
  | .hbm, ⟨18, _⟩ => ⟨S2048x16384, .f32⟩
  | .hbm, ⟨19, _⟩ => ⟨S16384x10, .f32⟩
  | .hbm, ⟨20, _⟩ => ⟨S2048x10, .f32⟩
  | .hbm, ⟨21, _⟩ => ⟨S1x10, .f32⟩
  | .hbm, ⟨22, _⟩ => ⟨S2048x10, .f32⟩
  | .hbm, ⟨23, _⟩ => ⟨S2048x10, .f32⟩
  | _, _ => ⟨S2048x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S2048x128x128 : S_.BroadcastsInDim S2048x128x128 (![] : Fin 0 → Fin S2048x128x128.rank)
  bcast_S128_S1x1x128_2 : S128.BroadcastsInDim S1x1x128 (![2] : Fin 1 → Fin S1x1x128.rank)
  bcast_S1x1x128_S2048x128x128_0_1_2 : S1x1x128.BroadcastsInDim S2048x128x128 (![0, 1, 2] : Fin 3 → Fin S2048x128x128.rank)
  shapeCasts_S2048x128x128_S2048x16384 : S2048x128x128.ShapeCasts S2048x16384
  transposes_S10x16384_S16384x10_1_0 : S10x16384.Transposes [1, 0] S16384x10
  bcast_S10_S1x10_1 : S10.BroadcastsInDim S1x10 (![1] : Fin 1 → Fin S1x10.rank)
  bcast_S1x10_S2048x10_0_1 : S1x10.BroadcastsInDim S2048x10 (![0, 1] : Fin 2 → Fin S2048x10.rank)
  dot_S2048x64x128_S2048x64x128_S2048x128x128_1_1_2_2_0_0_wf : DotDims.WF S2048x64x128 S2048x64x128 S2048x128x128 [1] [1] [2] [2] [0] [0]
  dot_S2048x128x128_S128x128_S2048x128x128_2_1_01_0_n_n_wf : DotDims.WF S2048x128x128 S128x128 S2048x128x128 [2] [1] [0, 1] [0] [] []
  dot_S2048x128x128_S2048x128x128_S2048x128x128_1_1_2_2_0_0_wf : DotDims.WF S2048x128x128 S2048x128x128 S2048x128x128 [1] [1] [2] [2] [0] [0]
  dot_S2048x16384_S16384x10_S2048x10_1_0_0_1_n_n_wf : DotDims.WF S2048x16384 S16384x10 S2048x10 [1] [0] [0] [1] [] []

variable [Facts₀]

def dot_S2048x64x128_S2048x64x128_S2048x128x128_1_1_2_2_0_0 : DotDims S2048x64x128 S2048x64x128 S2048x128x128 where
  lhsContracting := [1]
  rhsContracting := [1]
  lhsNonContracting := [2]
  rhsNonContracting := [2]
  lhsBatch := [0]
  rhsBatch := [0]
  wf := dot_S2048x64x128_S2048x64x128_S2048x128x128_1_1_2_2_0_0_wf
def dot_S2048x128x128_S128x128_S2048x128x128_2_1_01_0_n_n : DotDims S2048x128x128 S128x128 S2048x128x128 where
  lhsContracting := [2]
  rhsContracting := [1]
  lhsNonContracting := [0, 1]
  rhsNonContracting := [0]
  lhsBatch := []
  rhsBatch := []
  wf := dot_S2048x128x128_S128x128_S2048x128x128_2_1_01_0_n_n_wf
def dot_S2048x128x128_S2048x128x128_S2048x128x128_1_1_2_2_0_0 : DotDims S2048x128x128 S2048x128x128 S2048x128x128 where
  lhsContracting := [1]
  rhsContracting := [1]
  lhsNonContracting := [2]
  rhsNonContracting := [2]
  lhsBatch := [0]
  rhsBatch := [0]
  wf := dot_S2048x128x128_S2048x128x128_S2048x128x128_1_1_2_2_0_0_wf
def dot_S2048x16384_S16384x10_S2048x10_1_0_0_1_n_n : DotDims S2048x16384 S16384x10 S2048x10 where
  lhsContracting := [1]
  rhsContracting := [0]
  lhsNonContracting := [0]
  rhsNonContracting := [1]
  lhsBatch := []
  rhsBatch := []
  wf := dot_S2048x16384_S16384x10_S2048x10_1_0_0_1_n_n_wf

class Facts : Prop extends Facts₀ where

variable [Facts]
-- ==== Proof.GraphSpec.lean ====
/-
  What both programs compute, graph by graph, on the extended reals.

  A graph is a 64 × 128 matrix X of node features. Its Gram matrix XᵀX (128 × 128) is rounded to two decimals:
  scaled by 100, rounded to the nearest integer with ties to even, divided by 100. Every row of the rounded Gram
  matrix Q goes through one linear layer, A[d, k] = Σ_e Q[d, e] · W[k, e] + b[k]; the pooled matrix is
  P = Aᵀ Q, P[k, e] = Σ_d A[d, k] · Q[d, e]; P is read row after row as one vector of 128 · 128 numbers, and a
  last linear layer gives the graph's ten outputs, out[o] = Σ_j P[j / 128, j % 128] · W1[o, j] + b1[o].

  A graph's outputs depend on that graph's features and on the weights alone, so a batch is the same function
  applied graph by graph: `batchOut`, for any number of graphs.
-/
import Idealize.ShloMosaic.PureOps.Ideal
import Idealize.ShloMosaic.Lib.ValueIdx

noncomputable section

namespace Cert.GraphSpec

open Idealize.ShloMosaic Idealize.ShloMosaic.ValueIdx

/-- The scale of the two-decimal rounding: the f32 number 100. -/
abbrev hundred : EReal := Ideal.ofBits .f32 0x42C80000#32

/-- Rounding to two decimals: scale by 100, round to the nearest integer (ties to even), divide by 100. -/
def quant (a : EReal) : EReal := Ideal.div (Ideal.liftRound Ideal.roundHalfEven (a * hundred)) hundred

/-- One graph's Gram matrix XᵀX, entry (d, e) the sum over the nodes of the products of features d and e,
    rounded to two decimals. -/
def gram (xg : Fin 64 → Fin 128 → EReal) (d e : Fin 128) : EReal := quant (∑ n : Fin 64, xg n d * xg n e)

/-- The linear layer applied to row d of a 128 × 128 matrix q: entry k is the row against row k of the weight,
    plus the bias. -/
def attend (q W : Fin 128 → Fin 128 → EReal) (b : Fin 128 → EReal) (d k : Fin 128) : EReal :=
  (∑ e : Fin 128, q d e * W k e) + b k

/-- The pooled matrix aᵀ q. -/
def pool (a q : Fin 128 → Fin 128 → EReal) (k e : Fin 128) : EReal := ∑ d : Fin 128, a d k * q d e

/-- Position j of a 128 × 128 matrix read row after row: its row … -/
def rowOf (j : Fin 16384) : Fin 128 := ⟨j.val / 128, by have := j.isLt; omega⟩
/-- … and its column. -/
def colOf (j : Fin 16384) : Fin 128 := ⟨j.val % 128, Nat.mod_lt _ (by decide)⟩

/-- The last linear layer on the pooled matrix read row after row. -/
def readout (p : Fin 128 → Fin 128 → EReal) (W1 : Fin 10 → Fin 16384 → EReal) (b1 : Fin 10 → EReal) (o : Fin 10) : EReal :=
  (∑ j : Fin 16384, p (rowOf j) (colOf j) * W1 o j) + b1 o

/-- One graph's ten outputs from its features and the weights. -/
def graphOut (xg : Fin 64 → Fin 128 → EReal) (W : Fin 128 → Fin 128 → EReal) (b : Fin 128 → EReal)
    (W1 : Fin 10 → Fin 16384 → EReal) (b1 : Fin 10 → EReal) : Fin 10 → EReal :=
  readout (pool (attend (gram xg) W b) (gram xg)) W1 b1

/-- A batch of B graphs: output (g, o) is output o of graph g. -/
def batchOut {B : Nat} (x : (⟨3, ![B, 64, 128]⟩ : Shape).Idx → EReal) (W : (⟨2, ![128, 128]⟩ : Shape).Idx → EReal)
    (b : (⟨1, ![128]⟩ : Shape).Idx → EReal) (W1 : (⟨2, ![10, 16384]⟩ : Shape).Idx → EReal)
    (b1 : (⟨1, ![10]⟩ : Shape).Idx → EReal) : (⟨2, ![B, 10]⟩ : Shape).Idx → EReal :=
  fun i => graphOut (fun n d => x (ix3 (n0 := B) (i 0) n d)) (fun k e => W (ix2 k e)) (fun k => b (ix1 k))
    (fun o j => W1 (ix2 o j)) (fun o => b1 (ix1 o)) (i 1)

/-- A batch's output at graph g depends on that graph's features alone: if one batch's graph g' is another's
    graph g, their outputs there agree. -/
theorem batchOut_congr {B B' : Nat} (x : (⟨3, ![B, 64, 128]⟩ : Shape).Idx → EReal)
    (x' : (⟨3, ![B', 64, 128]⟩ : Shape).Idx → EReal) (W : (⟨2, ![128, 128]⟩ : Shape).Idx → EReal)
    (b : (⟨1, ![128]⟩ : Shape).Idx → EReal) (W1 : (⟨2, ![10, 16384]⟩ : Shape).Idx → EReal)
    (b1 : (⟨1, ![10]⟩ : Shape).Idx → EReal) (g : Fin B) (g' : Fin B') (o : Fin 10)
    (h : ∀ n d, x' (ix3 g' n d) = x (ix3 g n d)) :
    batchOut x' W b W1 b1 (ix2 g' o) = batchOut x W b W1 b1 (ix2 g o) := by
  unfold batchOut
  have e : (fun n d => x' (ix3 (n0 := B') ((ix2 g' o : (⟨2, ![B', 10]⟩ : Shape).Idx) 0) n d))
      = fun n d => x (ix3 (n0 := B) ((ix2 g o : (⟨2, ![B, 10]⟩ : Shape).Idx) 0) n d) :=
    funext fun n => funext fun d => h n d
  rw [e]
  rfl

end Cert.GraphSpec

end
-- ==== Proof.RefIsSpec.lean ====
/-
  The reference computes `batchOut` of its arguments: its einsum chain read one stage at a time.

  Stage by stage, at an index given by its coordinates: the rounded Gram matrix of graph g; the linear layer
  on its rows; the pooled matrix; the pooled matrix read row after row; the last linear layer (the weight
  transposed and contracted along its rows, which is the weight's row o against the flattened pooled matrix).
  No sum is reordered: each contraction of the reference runs over the same axis, in the same order, as the
  specification's.
-/
import proofs.«171296_j4526895530498_1_alg».proof.Proof.Gen.ReferenceIdeal.Read
import proofs.«171296_j4526895530498_1_alg».proof.Proof.GraphSpec

noncomputable section

namespace Cert.ReferenceIdeal.RefValue

open Cert.ReferenceIdeal Cert.ReferenceIdeal.Read Cert.GraphSpec Idealize.ShloMosaic Idealize.ShloMosaic.ValueIdx

variable (x0 : (⟨S2048x64x128, .f32⟩ : BufTy).Contents (Elt Ideal)) (x1 : (⟨S128x128, .f32⟩ : BufTy).Contents (Elt Ideal))
  (x2 : (⟨S128, .f32⟩ : BufTy).Contents (Elt Ideal)) (x3 : (⟨S10x16384, .f32⟩ : BufTy).Contents (Elt Ideal))
  (x4 : (⟨S10, .f32⟩ : BufTy).Contents (Elt Ideal))

/-- Graph g's features as a matrix. -/
abbrev feat (g : Fin 2048) : Fin 64 → Fin 128 → EReal := fun n d => x0 (ix3 g n d)
/-- The first layer's weight and bias, the last layer's weight and bias, by coordinates. -/
abbrev wAtt : Fin 128 → Fin 128 → EReal := fun k e => x1 (ix2 k e)
abbrev bAtt : Fin 128 → EReal := fun k => x2 (ix1 k)
abbrev wOut : Fin 10 → Fin 16384 → EReal := fun o j => x3 (ix2 o j)
abbrev bOut : Fin 10 → EReal := fun o => x4 (ix1 o)

/-- The reference's rounded Gram matrix at (g, d, e). -/
theorem gram_at (g : Fin 2048) (d e : Fin 128) :
    val_main_v5 (F := Ideal) x0 (ix3 g d e) = gram (feat x0 g) d e := by
  rw [val_main_v5_apply, val_main_v3_apply, val_main_v2_apply, val_main_v0_apply, val_main_v1_apply, val_main_v4_apply,
    val_main_cst_apply, val_main_cst_0_apply]
  have hl : ∀ k : Fin 64, lidx_main_v0 (ix3 g d e) k = ix3 g k d := fun k => funext fun a => Fin.ext (by
    match a with | ⟨0, _⟩ => rfl | ⟨1, _⟩ => rfl | ⟨2, _⟩ => rfl)
  have hr : ∀ k : Fin 64, ridx_main_v0 (ix3 g d e) k = ix3 g k e := fun k => funext fun a => Fin.ext (by
    match a with | ⟨0, _⟩ => rfl | ⟨1, _⟩ => rfl | ⟨2, _⟩ => rfl)
  simp only [hl, hr]
  rfl

/-- The reference's first linear layer at (g, d, k). -/
theorem attend_at (g : Fin 2048) (d k : Fin 128) :
    val_main_v9 (F := Ideal) x0 x1 x2 (ix3 g d k) = attend (gram (feat x0 g)) (wAtt x1) (bAtt x2) d k := by
  rw [val_main_v9_apply, val_main_v6_apply, val_main_v8_apply, val_main_v7_apply]
  have hl : ∀ e : Fin 128, lidx_main_v6 (ix3 g d k) e = ix3 g d e := fun e => funext fun a => Fin.ext (by
    match a with | ⟨0, _⟩ => rfl | ⟨1, _⟩ => rfl | ⟨2, _⟩ => rfl)
  have hr : ∀ e : Fin 128, ridx_main_v6 (ix3 g d k) e = ix2 k e := fun e => funext fun a => Fin.ext (by
    match a with | ⟨0, _⟩ => rfl | ⟨1, _⟩ => rfl)
  have hb : idx_main_v7 (idx_main_v8 (ix3 g d k)) = ix1 k := funext fun a => Fin.ext (by
    match a with | ⟨0, _⟩ => rfl)
  simp only [hl, hr, hb, gram_at]
  rfl

/-- The reference's pooled matrix at (g, k, e). -/
theorem pool_at (g : Fin 2048) (k e : Fin 128) :
    val_main_v10 (F := Ideal) x0 x1 x2 (ix3 g k e)
      = pool (attend (gram (feat x0 g)) (wAtt x1) (bAtt x2)) (gram (feat x0 g)) k e := by
  rw [val_main_v10_apply]
  have hl : ∀ d : Fin 128, lidx_main_v10 (ix3 g k e) d = ix3 g d k := fun d => funext fun a => Fin.ext (by
    match a with | ⟨0, _⟩ => rfl | ⟨1, _⟩ => rfl | ⟨2, _⟩ => rfl)
  have hr : ∀ d : Fin 128, ridx_main_v10 (ix3 g k e) d = ix3 g d e := fun d => funext fun a => Fin.ext (by
    match a with | ⟨0, _⟩ => rfl | ⟨1, _⟩ => rfl | ⟨2, _⟩ => rfl)
  simp only [hl, hr, attend_at, gram_at]
  rfl

/-- Position (g, j) of the flattened pooled matrices is entry (j / 128, j % 128) of graph g's. -/
theorem flat_idx (g : Fin 2048) (j : Fin 16384) : idx_main_v11 (ix2 g j) = ix3 g (rowOf j) (colOf j) :=
  funext fun a => Fin.ext (by
    have hg : g.val < 2048 := g.isLt
    have hj : j.val < 16384 := j.isLt
    match a with
    | ⟨0, _⟩ => show (g.val * 16384 + j.val) / 16384 = g.val; omega
    | ⟨1, _⟩ => show (g.val * 16384 + j.val) / 128 % 128 = j.val / 128; omega
    | ⟨2, _⟩ => show (g.val * 16384 + j.val) % 128 = j.val % 128; omega)

/-- The reference's result at (g, o) is graph g's output o. -/
theorem out_at (g : Fin 2048) (o : Fin 10) :
    val_main_v16 (F := Ideal) x0 x1 x2 x3 x4 (ix2 g o) = batchOut x0 x1 x2 x3 x4 (ix2 g o) := by
  rw [val_main_v16_apply, val_main_v13_apply, val_main_v15_apply, val_main_v14_apply]
  have hl : ∀ j : Fin 16384, lidx_main_v13 (ix2 g o) j = ix2 g j := fun j => funext fun a => Fin.ext (by
    match a with | ⟨0, _⟩ => rfl | ⟨1, _⟩ => rfl)
  have hr : ∀ j : Fin 16384, idx_main_v12 (ridx_main_v13 (ix2 g o) j) = ix2 o j := fun j => funext fun a => Fin.ext (by
    match a with | ⟨0, _⟩ => rfl | ⟨1, _⟩ => rfl)
  have hb : idx_main_v14 (idx_main_v15 (ix2 g o)) = ix1 o := funext fun a => Fin.ext (by
    match a with | ⟨0, _⟩ => rfl)
  simp only [hl, val_main_v11_apply, val_main_v12_apply, hr, hb, flat_idx, pool_at]
  rfl

/-- The reference's result array is the specification of its arguments. -/
theorem result_eq : val_main_v16 (F := Ideal) x0 x1 x2 x3 x4 = batchOut x0 x1 x2 x3 x4 := by
  funext i
  rw [eq_ix2 i]
  exact out_at x0 x1 x2 x3 x4 (i 0) (i 1)

end Cert.ReferenceIdeal.RefValue

end
-- ==== Proof.MatProducts.lean ====
/-
  The kernel's four matrix products, into a zero accumulator, read at an index on the extended reals: each
  is the plain sum over its one contracted axis of the products of the operands' entries.

  * the Gram product of a block of graphs, batched over the graph axis and contracting the node axis of both
    operands: entry (p, d, e) is Σ_n l[p, n, d] · r[p, n, e];
  * a matrix against a weight given row by row (both contracted along their last axis): entry (i, k) is
    Σ_e l[i, e] · r[k, e] — at 8192 × 128 against 128 × 128, and at 64 × 16384 against 10 × 16384;
  * the pooling product, batched over the graph axis and contracting the row axis of both operands: entry
    (p, k, e) is Σ_d l[p, d, k] · r[p, d, e].
-/
import proofs.«171296_j4526895530498_1_alg».proof.Proof.Gen.KernelIdeal
import Idealize.ShloMosaic.Lib.ValueIdx
import Idealize.ShloMosaic.PureOps.Ideal.Laws

noncomputable section

namespace Cert.KernelIdeal.MatProducts

open Cert.KernelIdeal Cert.KernelIdeal.Gen Idealize.ShloMosaic Idealize.ShloMosaic.ValueIdx

/-! ## The Gram product of a block: 64 graphs, 64 nodes, 128 features -/

theorem lhs_gram_0 (i : S64x128x128.Idx) (q : dot_S64x64x128_S64x64x128_S64x128x128_1_1_2_2_0_0.contr.Idx) :
    (dot_S64x64x128_S64x64x128_S64x128x128_1_1_2_2_0_0.lhsIdx i q 0).val = (i 0).val := by
  unfold DotDims.lhsIdx
  rw [dif_pos (show (0 : Fin S64x64x128.rank) ∈ dot_S64x64x128_S64x64x128_S64x128x128_1_1_2_2_0_0.lhsBatch by decide)]
  rfl
theorem lhs_gram_1 (i : S64x128x128.Idx) (q : dot_S64x64x128_S64x64x128_S64x128x128_1_1_2_2_0_0.contr.Idx) :
    (dot_S64x64x128_S64x64x128_S64x128x128_1_1_2_2_0_0.lhsIdx i q 1).val = (q ⟨0, by decide⟩).val :=
  dot_S64x64x128_S64x64x128_S64x128x128_1_1_2_2_0_0.lhsIdx_val_of_single rfl i q
theorem lhs_gram_2 (i : S64x128x128.Idx) (q : dot_S64x64x128_S64x64x128_S64x128x128_1_1_2_2_0_0.contr.Idx) :
    (dot_S64x64x128_S64x64x128_S64x128x128_1_1_2_2_0_0.lhsIdx i q 2).val = (i 1).val := by
  unfold DotDims.lhsIdx
  rw [dif_neg (show ¬(2 : Fin S64x64x128.rank) ∈ dot_S64x64x128_S64x64x128_S64x128x128_1_1_2_2_0_0.lhsBatch by decide),
    dif_pos (show (2 : Fin S64x64x128.rank) ∈ dot_S64x64x128_S64x64x128_S64x128x128_1_1_2_2_0_0.lhsNonContracting by decide)]
  rfl
theorem rhs_gram_0 (i : S64x128x128.Idx) (q : dot_S64x64x128_S64x64x128_S64x128x128_1_1_2_2_0_0.contr.Idx) :
    (dot_S64x64x128_S64x64x128_S64x128x128_1_1_2_2_0_0.rhsIdx i q 0).val = (i 0).val := by
  unfold DotDims.rhsIdx
  rw [dif_pos (show (0 : Fin S64x64x128.rank) ∈ dot_S64x64x128_S64x64x128_S64x128x128_1_1_2_2_0_0.rhsBatch by decide)]
  rfl
theorem rhs_gram_1 (i : S64x128x128.Idx) (q : dot_S64x64x128_S64x64x128_S64x128x128_1_1_2_2_0_0.contr.Idx) :
    (dot_S64x64x128_S64x64x128_S64x128x128_1_1_2_2_0_0.rhsIdx i q 1).val = (q ⟨0, by decide⟩).val :=
  dot_S64x64x128_S64x64x128_S64x128x128_1_1_2_2_0_0.rhsIdx_val_of_single rfl i q
theorem rhs_gram_2 (i : S64x128x128.Idx) (q : dot_S64x64x128_S64x64x128_S64x128x128_1_1_2_2_0_0.contr.Idx) :
    (dot_S64x64x128_S64x64x128_S64x128x128_1_1_2_2_0_0.rhsIdx i q 2).val = (i 2).val := by
  unfold DotDims.rhsIdx
  rw [dif_neg (show ¬(2 : Fin S64x64x128.rank) ∈ dot_S64x64x128_S64x64x128_S64x128x128_1_1_2_2_0_0.rhsBatch by decide),
    dif_pos (show (2 : Fin S64x64x128.rank) ∈ dot_S64x64x128_S64x64x128_S64x128x128_1_1_2_2_0_0.rhsNonContracting by decide)]
  rfl

/-- Entry (p, d, e) of the block's Gram product: the sum over the nodes. -/
theorem gramProd_at (prec : Option ContractPrecision) (l r : FVec Ideal S64x64x128 .f32) (p : Fin 64) (d e : Fin 128) :
    matmul dot_S64x64x128_S64x64x128_S64x128x128_1_1_2_2_0_0 prec l r (constant (F := Ideal) S64x128x128 .f32 0x00000000#32) (ix3 p d e)
      = ∑ n : Fin 64, l (ix3 p n d) * r (ix3 p n e) := by
  simp only [matmul]
  rw [Ideal.matmul_constant_zero_apply, ← Equiv.sum_comp (contrEquiv1 dot_S64x64x128_S64x64x128_S64x128x128_1_1_2_2_0_0 64 rfl rfl).symm]
  refine Finset.sum_congr rfl fun k _ => ?_
  have hk := contrEquiv1_symm_val dot_S64x64x128_S64x64x128_S64x128x128_1_1_2_2_0_0 64 rfl rfl k
  have el : dot_S64x64x128_S64x64x128_S64x128x128_1_1_2_2_0_0.lhsIdx (ix3 p d e) ((contrEquiv1 dot_S64x64x128_S64x64x128_S64x128x128_1_1_2_2_0_0 64 rfl rfl).symm k) = ix3 p k d := funext fun a => Fin.ext (by
    match a with
    | ⟨0, _⟩ => exact lhs_gram_0 _ _
    | ⟨1, _⟩ => exact (lhs_gram_1 _ _).trans hk
    | ⟨2, _⟩ => exact lhs_gram_2 _ _)
  have er : dot_S64x64x128_S64x64x128_S64x128x128_1_1_2_2_0_0.rhsIdx (ix3 p d e) ((contrEquiv1 dot_S64x64x128_S64x64x128_S64x128x128_1_1_2_2_0_0 64 rfl rfl).symm k) = ix3 p k e := funext fun a => Fin.ext (by
    match a with
    | ⟨0, _⟩ => exact rhs_gram_0 _ _
    | ⟨1, _⟩ => exact (rhs_gram_1 _ _).trans hk
    | ⟨2, _⟩ => exact rhs_gram_2 _ _)
  rw [el, er]

/-! ## Rows against the first layer's weight: 8192 × 128 against 128 × 128 -/

theorem lhs_rows_0 (i : S8192x128.Idx) (q : dot_S8192x128_S128x128_S8192x128_1_1_0_0_n_n.contr.Idx) :
    (dot_S8192x128_S128x128_S8192x128_1_1_0_0_n_n.lhsIdx i q 0).val = (i 0).val := by
  unfold DotDims.lhsIdx
  rw [dif_neg (show ¬(0 : Fin S8192x128.rank) ∈ dot_S8192x128_S128x128_S8192x128_1_1_0_0_n_n.lhsBatch by decide),
    dif_pos (show (0 : Fin S8192x128.rank) ∈ dot_S8192x128_S128x128_S8192x128_1_1_0_0_n_n.lhsNonContracting by decide)]
  rfl
theorem lhs_rows_1 (i : S8192x128.Idx) (q : dot_S8192x128_S128x128_S8192x128_1_1_0_0_n_n.contr.Idx) :
    (dot_S8192x128_S128x128_S8192x128_1_1_0_0_n_n.lhsIdx i q 1).val = (q ⟨0, by decide⟩).val :=
  dot_S8192x128_S128x128_S8192x128_1_1_0_0_n_n.lhsIdx_val_of_single rfl i q
theorem rhs_rows_0 (i : S8192x128.Idx) (q : dot_S8192x128_S128x128_S8192x128_1_1_0_0_n_n.contr.Idx) :
    (dot_S8192x128_S128x128_S8192x128_1_1_0_0_n_n.rhsIdx i q 0).val = (i 1).val := by
  unfold DotDims.rhsIdx
  rw [dif_neg (show ¬(0 : Fin S128x128.rank) ∈ dot_S8192x128_S128x128_S8192x128_1_1_0_0_n_n.rhsBatch by decide),
    dif_pos (show (0 : Fin S128x128.rank) ∈ dot_S8192x128_S128x128_S8192x128_1_1_0_0_n_n.rhsNonContracting by decide)]
  rfl
theorem rhs_rows_1 (i : S8192x128.Idx) (q : dot_S8192x128_S128x128_S8192x128_1_1_0_0_n_n.contr.Idx) :
    (dot_S8192x128_S128x128_S8192x128_1_1_0_0_n_n.rhsIdx i q 1).val = (q ⟨0, by decide⟩).val :=
  dot_S8192x128_S128x128_S8192x128_1_1_0_0_n_n.rhsIdx_val_of_single rfl i q

/-- Entry (i, k) of the rows against the weight: row i against the weight's row k. -/
theorem rowsProd_at (prec : Option ContractPrecision) (l : FVec Ideal S8192x128 .f32) (r : FVec Ideal S128x128 .f32) (i : Fin 8192) (k : Fin 128) :
    matmul dot_S8192x128_S128x128_S8192x128_1_1_0_0_n_n prec l r (constant (F := Ideal) S8192x128 .f32 0x00000000#32) (ix2 i k)
      = ∑ e : Fin 128, l (ix2 i e) * r (ix2 k e) := by
  simp only [matmul]
  rw [Ideal.matmul_constant_zero_apply, ← Equiv.sum_comp (contrEquiv1 dot_S8192x128_S128x128_S8192x128_1_1_0_0_n_n 128 rfl rfl).symm]
  refine Finset.sum_congr rfl fun c _ => ?_
  have hk := contrEquiv1_symm_val dot_S8192x128_S128x128_S8192x128_1_1_0_0_n_n 128 rfl rfl c
  have el : dot_S8192x128_S128x128_S8192x128_1_1_0_0_n_n.lhsIdx (ix2 i k) ((contrEquiv1 dot_S8192x128_S128x128_S8192x128_1_1_0_0_n_n 128 rfl rfl).symm c) = ix2 i c := funext fun a => Fin.ext (by
    match a with
    | ⟨0, _⟩ => exact lhs_rows_0 _ _
    | ⟨1, _⟩ => exact (lhs_rows_1 _ _).trans hk)
  have er : dot_S8192x128_S128x128_S8192x128_1_1_0_0_n_n.rhsIdx (ix2 i k) ((contrEquiv1 dot_S8192x128_S128x128_S8192x128_1_1_0_0_n_n 128 rfl rfl).symm c) = ix2 k c := funext fun a => Fin.ext (by
    match a with
    | ⟨0, _⟩ => exact rhs_rows_0 _ _
    | ⟨1, _⟩ => exact (rhs_rows_1 _ _).trans hk)
  rw [el, er]

/-! ## The pooling product of a block: 64 graphs of 128 × 128 against 128 × 128 -/

theorem lhs_pool_0 (i : S64x128x128.Idx) (q : dot_S64x128x128_S64x128x128_S64x128x128_1_1_2_2_0_0.contr.Idx) :
    (dot_S64x128x128_S64x128x128_S64x128x128_1_1_2_2_0_0.lhsIdx i q 0).val = (i 0).val := by
  unfold DotDims.lhsIdx
  rw [dif_pos (show (0 : Fin S64x128x128.rank) ∈ dot_S64x128x128_S64x128x128_S64x128x128_1_1_2_2_0_0.lhsBatch by decide)]
  rfl
theorem lhs_pool_1 (i : S64x128x128.Idx) (q : dot_S64x128x128_S64x128x128_S64x128x128_1_1_2_2_0_0.contr.Idx) :
    (dot_S64x128x128_S64x128x128_S64x128x128_1_1_2_2_0_0.lhsIdx i q 1).val = (q ⟨0, by decide⟩).val :=
  dot_S64x128x128_S64x128x128_S64x128x128_1_1_2_2_0_0.lhsIdx_val_of_single rfl i q
theorem lhs_pool_2 (i : S64x128x128.Idx) (q : dot_S64x128x128_S64x128x128_S64x128x128_1_1_2_2_0_0.contr.Idx) :
    (dot_S64x128x128_S64x128x128_S64x128x128_1_1_2_2_0_0.lhsIdx i q 2).val = (i 1).val := by
  unfold DotDims.lhsIdx
  rw [dif_neg (show ¬(2 : Fin S64x128x128.rank) ∈ dot_S64x128x128_S64x128x128_S64x128x128_1_1_2_2_0_0.lhsBatch by decide),
    dif_pos (show (2 : Fin S64x128x128.rank) ∈ dot_S64x128x128_S64x128x128_S64x128x128_1_1_2_2_0_0.lhsNonContracting by decide)]
  rfl
theorem rhs_pool_0 (i : S64x128x128.Idx) (q : dot_S64x128x128_S64x128x128_S64x128x128_1_1_2_2_0_0.contr.Idx) :
    (dot_S64x128x128_S64x128x128_S64x128x128_1_1_2_2_0_0.rhsIdx i q 0).val = (i 0).val := by
  unfold DotDims.rhsIdx
  rw [dif_pos (show (0 : Fin S64x128x128.rank) ∈ dot_S64x128x128_S64x128x128_S64x128x128_1_1_2_2_0_0.rhsBatch by decide)]
  rfl
theorem rhs_pool_1 (i : S64x128x128.Idx) (q : dot_S64x128x128_S64x128x128_S64x128x128_1_1_2_2_0_0.contr.Idx) :
    (dot_S64x128x128_S64x128x128_S64x128x128_1_1_2_2_0_0.rhsIdx i q 1).val = (q ⟨0, by decide⟩).val :=
  dot_S64x128x128_S64x128x128_S64x128x128_1_1_2_2_0_0.rhsIdx_val_of_single rfl i q
theorem rhs_pool_2 (i : S64x128x128.Idx) (q : dot_S64x128x128_S64x128x128_S64x128x128_1_1_2_2_0_0.contr.Idx) :
    (dot_S64x128x128_S64x128x128_S64x128x128_1_1_2_2_0_0.rhsIdx i q 2).val = (i 2).val := by
  unfold DotDims.rhsIdx
  rw [dif_neg (show ¬(2 : Fin S64x128x128.rank) ∈ dot_S64x128x128_S64x128x128_S64x128x128_1_1_2_2_0_0.rhsBatch by decide),
    dif_pos (show (2 : Fin S64x128x128.rank) ∈ dot_S64x128x128_S64x128x128_S64x128x128_1_1_2_2_0_0.rhsNonContracting by decide)]
  rfl

/-- Entry (p, k, e) of the block's pooling product: the sum over the rows. -/
theorem poolProd_at (prec : Option ContractPrecision) (l r : FVec Ideal S64x128x128 .f32) (p : Fin 64) (k e : Fin 128) :
    matmul dot_S64x128x128_S64x128x128_S64x128x128_1_1_2_2_0_0 prec l r (constant (F := Ideal) S64x128x128 .f32 0x00000000#32) (ix3 p k e)
      = ∑ d : Fin 128, l (ix3 p d k) * r (ix3 p d e) := by
  simp only [matmul]
  rw [Ideal.matmul_constant_zero_apply, ← Equiv.sum_comp (contrEquiv1 dot_S64x128x128_S64x128x128_S64x128x128_1_1_2_2_0_0 128 rfl rfl).symm]
  refine Finset.sum_congr rfl fun c _ => ?_
  have hk := contrEquiv1_symm_val dot_S64x128x128_S64x128x128_S64x128x128_1_1_2_2_0_0 128 rfl rfl c
  have el : dot_S64x128x128_S64x128x128_S64x128x128_1_1_2_2_0_0.lhsIdx (ix3 p k e) ((contrEquiv1 dot_S64x128x128_S64x128x128_S64x128x128_1_1_2_2_0_0 128 rfl rfl).symm c) = ix3 p c k := funext fun a => Fin.ext (by
    match a with
    | ⟨0, _⟩ => exact lhs_pool_0 _ _
    | ⟨1, _⟩ => exact (lhs_pool_1 _ _).trans hk
    | ⟨2, _⟩ => exact lhs_pool_2 _ _)
  have er : dot_S64x128x128_S64x128x128_S64x128x128_1_1_2_2_0_0.rhsIdx (ix3 p k e) ((contrEquiv1 dot_S64x128x128_S64x128x128_S64x128x128_1_1_2_2_0_0 128 rfl rfl).symm c) = ix3 p c e := funext fun a => Fin.ext (by
    match a with
    | ⟨0, _⟩ => exact rhs_pool_0 _ _
    | ⟨1, _⟩ => exact (rhs_pool_1 _ _).trans hk
    | ⟨2, _⟩ => exact rhs_pool_2 _ _)
  rw [el, er]

/-! ## The flattened pooled matrices against the last layer's weight: 64 × 16384 against 10 × 16384 -/

theorem lhs_out_0 (i : S64x10.Idx) (q : dot_S64x16384_S10x16384_S64x10_1_1_0_0_n_n.contr.Idx) :
    (dot_S64x16384_S10x16384_S64x10_1_1_0_0_n_n.lhsIdx i q 0).val = (i 0).val := by
  unfold DotDims.lhsIdx
  rw [dif_neg (show ¬(0 : Fin S64x16384.rank) ∈ dot_S64x16384_S10x16384_S64x10_1_1_0_0_n_n.lhsBatch by decide),
    dif_pos (show (0 : Fin S64x16384.rank) ∈ dot_S64x16384_S10x16384_S64x10_1_1_0_0_n_n.lhsNonContracting by decide)]
  rfl
theorem lhs_out_1 (i : S64x10.Idx) (q : dot_S64x16384_S10x16384_S64x10_1_1_0_0_n_n.contr.Idx) :
    (dot_S64x16384_S10x16384_S64x10_1_1_0_0_n_n.lhsIdx i q 1).val = (q ⟨0, by decide⟩).val :=
  dot_S64x16384_S10x16384_S64x10_1_1_0_0_n_n.lhsIdx_val_of_single rfl i q
theorem rhs_out_0 (i : S64x10.Idx) (q : dot_S64x16384_S10x16384_S64x10_1_1_0_0_n_n.contr.Idx) :
    (dot_S64x16384_S10x16384_S64x10_1_1_0_0_n_n.rhsIdx i q 0).val = (i 1).val := by
  unfold DotDims.rhsIdx
  rw [dif_neg (show ¬(0 : Fin S10x16384.rank) ∈ dot_S64x16384_S10x16384_S64x10_1_1_0_0_n_n.rhsBatch by decide),
    dif_pos (show (0 : Fin S10x16384.rank) ∈ dot_S64x16384_S10x16384_S64x10_1_1_0_0_n_n.rhsNonContracting by decide)]
  rfl
theorem rhs_out_1 (i : S64x10.Idx) (q : dot_S64x16384_S10x16384_S64x10_1_1_0_0_n_n.contr.Idx) :
    (dot_S64x16384_S10x16384_S64x10_1_1_0_0_n_n.rhsIdx i q 1).val = (q ⟨0, by decide⟩).val :=
  dot_S64x16384_S10x16384_S64x10_1_1_0_0_n_n.rhsIdx_val_of_single rfl i q

/-- Entry (p, o) of the last product: graph p's flattened pooled matrix against the weight's row o. -/
theorem outProd_at (prec : Option ContractPrecision) (l : FVec Ideal S64x16384 .f32) (r : FVec Ideal S10x16384 .f32) (p : Fin 64) (o : Fin 10) :
    matmul dot_S64x16384_S10x16384_S64x10_1_1_0_0_n_n prec l r (constant (F := Ideal) S64x10 .f32 0x00000000#32) (ix2 p o)
      = ∑ j : Fin 16384, l (ix2 p j) * r (ix2 o j) := by
  simp only [matmul]
  rw [Ideal.matmul_constant_zero_apply, ← Equiv.sum_comp (contrEquiv1 dot_S64x16384_S10x16384_S64x10_1_1_0_0_n_n 16384 rfl rfl).symm]
  refine Finset.sum_congr rfl fun c _ => ?_
  have hk := contrEquiv1_symm_val dot_S64x16384_S10x16384_S64x10_1_1_0_0_n_n 16384 rfl rfl c
  have el : dot_S64x16384_S10x16384_S64x10_1_1_0_0_n_n.lhsIdx (ix2 p o) ((contrEquiv1 dot_S64x16384_S10x16384_S64x10_1_1_0_0_n_n 16384 rfl rfl).symm c) = ix2 p c := funext fun a => Fin.ext (by
    match a with
    | ⟨0, _⟩ => exact lhs_out_0 _ _
    | ⟨1, _⟩ => exact (lhs_out_1 _ _).trans hk)
  have er : dot_S64x16384_S10x16384_S64x10_1_1_0_0_n_n.rhsIdx (ix2 p o) ((contrEquiv1 dot_S64x16384_S10x16384_S64x10_1_1_0_0_n_n 16384 rfl rfl).symm c) = ix2 o c := funext fun a => Fin.ext (by
    match a with
    | ⟨0, _⟩ => exact rhs_out_0 _ _
    | ⟨1, _⟩ => exact (rhs_out_1 _ _).trans hk)
  rw [el, er]

end Cert.KernelIdeal.MatProducts

end
-- ==== Proof.KernelBlock.lean ====
/-
  What the kernel's body computes from the blocks it loads is `batchOut` of those blocks: the 64 graphs of a
  block go through the same chain as the specification's, graph by graph.

  The body works on the whole block at once. The 64 rounded Gram matrices are one batched product; they are
  laid out as 64 · 128 rows of 128 numbers for the linear layer (row p · 128 + d is row d of graph p's matrix),
  whose result is laid back as 64 matrices; pooling is a second batched product; each pooled matrix is read
  row after row as 16384 numbers (position j is entry (j / 128, j % 128)) for the last layer. The two biases
  are one row each, repeated over the rows.
-/
import proofs.«171296_j4526895530498_1_alg».proof.Proof.Gen.KernelIdeal.Skeleton
import proofs.«171296_j4526895530498_1_alg».proof.Proof.MatProducts
import proofs.«171296_j4526895530498_1_alg».proof.Proof.GraphSpec
import Idealize.ShloMosaic.Lib.Pipeline.Value
import Idealize.ShloMosaic.Lib.ValueLayout

noncomputable section

namespace Cert.KernelIdeal.BlockValue

open Cert.KernelIdeal Cert.KernelIdeal.Gen Cert.KernelIdeal.MatProducts Cert.GraphSpec
open Idealize.ShloMosaic Idealize.ShloMosaic.ValueIdx

variable (v0 : FVec Ideal S64x64x128 .f32) (v8 : FVec Ideal S128x128 .f32) (v10 : FVec Ideal S128 .f32)
  (v17 : FVec Ideal S10x16384 .f32) (v19 : FVec Ideal S10 .f32)

/-! ## The body's stages -/

/-- The block's 64 Gram matrices, rounded to two decimals. -/
def gramBlk : FVec Ideal S64x128x128 .f32 :=
  divf (roundeven (mulf (matmul dot_S64x64x128_S64x64x128_S64x128x128_1_1_2_2_0_0 (some .fp32) v0 v0 (constant (F := Ideal) S64x128x128 .f32 0x00000000#32))
    (broadcast S64x128x128 (Scalar.ofBits (F := Ideal) .f32 0x42C80000#32)))) (broadcast S64x128x128 (Scalar.ofBits (F := Ideal) .f32 0x42C80000#32))

/-- The linear layer on the 8192 rows of the block's rounded Gram matrices, laid back as 64 matrices. -/
def attendBlk : FVec Ideal S64x128x128 .f32 :=
  shapeCast S64x128x128 (addf (matmul dot_S8192x128_S128x128_S8192x128_1_1_0_0_n_n (some .fp32)
      (shapeCast S8192x128 (gramBlk v0) shapeCasts_S64x128x128_S8192x128) v8 (constant (F := Ideal) S8192x128 .f32 0x00000000#32))
    (broadcastTo S8192x128 (shapeCast S1x128 v10 shapeCasts_S128_S1x128) broadcasts_S1x128_S8192x128)) shapeCasts_S8192x128_S64x128x128

/-- The block's 64 pooled matrices. -/
def poolBlk : FVec Ideal S64x128x128 .f32 :=
  matmul dot_S64x128x128_S64x128x128_S64x128x128_1_1_2_2_0_0 (some .fp32) (attendBlk v0 v8 v10) (gramBlk v0) (constant (F := Ideal) S64x128x128 .f32 0x00000000#32)

/-- The body's stored value is the last layer on the flattened pooled matrices. -/
theorem payload_eq : k0_pay1 (F := Ideal) v0 v8 v10 v17 v19
    = addf (matmul dot_S64x16384_S10x16384_S64x10_1_1_0_0_n_n (some .fp32) (shapeCast S64x16384 (poolBlk v0 v8 v10) shapeCasts_S64x128x128_S64x16384) v17
        (constant (F := Ideal) S64x10 .f32 0x00000000#32))
      (broadcastTo S64x10 (shapeCast S1x10 v19 shapeCasts_S10_S1x10) broadcasts_S1x10_S64x10) := rfl

/-! ## The layouts at coordinates -/

/-- Row d of graph p among the block's 8192 rows. -/
def rowIx (p : Fin 64) (d : Fin 128) : Fin 8192 := ⟨p.val * 128 + d.val, by have := p.isLt; have := d.isLt; omega⟩

/-- 64 matrices laid out as 8192 rows: row p · 128 + d is row d of matrix p. -/
theorem rows_at (v : FVec Ideal S64x128x128 .f32) (p : Fin 64) (d e : Fin 128) :
    shapeCast S8192x128 v shapeCasts_S64x128x128_S8192x128 (ix2 (rowIx p d) e) = v (ix3 p d e) :=
  shapeCast_apply v shapeCasts_S64x128x128_S8192x128 _ _ (by
    rw [Shape.rowMajor_val_three, Shape.rowMajor_val_two]
    show (p.val * 128 + d.val) * 128 + e.val = (p.val * 128 + d.val) * 128 + e.val
    rfl)

/-- 8192 rows laid back as 64 matrices. -/
theorem matrices_at (u : FVec Ideal S8192x128 .f32) (p : Fin 64) (d k : Fin 128) :
    shapeCast S64x128x128 u shapeCasts_S8192x128_S64x128x128 (ix3 p d k) = u (ix2 (rowIx p d) k) :=
  shapeCast_apply u shapeCasts_S8192x128_S64x128x128 _ _ (by
    rw [Shape.rowMajor_val_three, Shape.rowMajor_val_two]
    show (p.val * 128 + d.val) * 128 + k.val = (p.val * 128 + d.val) * 128 + k.val
    rfl)

/-- A matrix read row after row: position j is entry (j / 128, j % 128). -/
theorem flat_at (v : FVec Ideal S64x128x128 .f32) (p : Fin 64) (j : Fin 16384) :
    shapeCast S64x16384 v shapeCasts_S64x128x128_S64x16384 (ix2 p j) = v (ix3 p (rowOf j) (colOf j)) :=
  shapeCast_apply v shapeCasts_S64x128x128_S64x16384 _ _ (by
    rw [Shape.rowMajor_val_three, Shape.rowMajor_val_two]
    show (p.val * 128 + j.val / 128) * 128 + j.val % 128 = p.val * 16384 + j.val
    have := j.isLt
    omega)

/-! ## The stages at an index -/

/-- Graph p of the block, as a matrix of features. -/
abbrev feat (p : Fin 64) : Fin 64 → Fin 128 → EReal := fun n d => v0 (ix3 p n d)
abbrev wAtt : Fin 128 → Fin 128 → EReal := fun k e => v8 (ix2 k e)
abbrev bAtt : Fin 128 → EReal := fun k => v10 (ix1 k)
abbrev wOut : Fin 10 → Fin 16384 → EReal := fun o j => v17 (ix2 o j)
abbrev bOut : Fin 10 → EReal := fun o => v19 (ix1 o)

theorem gramBlk_at (p : Fin 64) (d e : Fin 128) : gramBlk v0 (ix3 p d e) = gram (feat v0 p) d e := by
  show quant (matmul dot_S64x64x128_S64x64x128_S64x128x128_1_1_2_2_0_0 (some .fp32) v0 v0 (constant (F := Ideal) S64x128x128 .f32 0x00000000#32) (ix3 p d e)) = _
  rw [gramProd_at]
  rfl

theorem attendBlk_at (p : Fin 64) (d k : Fin 128) :
    attendBlk v0 v8 v10 (ix3 p d k) = attend (gram (feat v0 p)) (wAtt v8) (bAtt v10) d k := by
  unfold attendBlk
  rw [matrices_at, addf_apply, rowsProd_at, broadcastTo_1b_ab_apply, shapeCast_a_1a_apply]
  simp only [rows_at, gramBlk_at]
  rfl

theorem poolBlk_at (p : Fin 64) (k e : Fin 128) :
    poolBlk v0 v8 v10 (ix3 p k e) = pool (attend (gram (feat v0 p)) (wAtt v8) (bAtt v10)) (gram (feat v0 p)) k e := by
  unfold poolBlk
  rw [poolProd_at]
  simp only [attendBlk_at, gramBlk_at]
  rfl

/-- The body's stored value at (p, o) is output o of the block's graph p. -/
theorem payload_at (p : Fin 64) (o : Fin 10) :
    k0_pay1 (F := Ideal) v0 v8 v10 v17 v19 (ix2 p o) = batchOut v0 v8 v10 v17 v19 (ix2 p o) := by
  rw [payload_eq, addf_apply, outProd_at, broadcastTo_1b_ab_apply, shapeCast_a_1a_apply]
  simp only [flat_at, poolBlk_at]
  rfl

/-- The body's stored value is the specification of the loaded blocks. -/
theorem payload_is_batchOut : k0_pay1 (F := Ideal) v0 v8 v10 v17 v19 = batchOut v0 v8 v10 v17 v19 := by
  funext y
  rw [eq_ix2 y]
  exact payload_at v0 v8 v10 v17 v19 (y 0) (y 1)

end Cert.KernelIdeal.BlockValue

end
-- ==== Proof.BlocksToArray.lean ====
/-
  From the grid's 32 points to the whole result: the kernel's result array is `batchOut` of its argument arrays.

  Point t of the grid works on graphs 64 t … 64 t + 63: its feature block is those graphs' rows of the feature
  array, its four weight blocks are the whole weight arrays, and it writes rows 64 t … 64 t + 63 of the result.
  A graph's outputs depend on that graph's features and the weights alone, so what the point writes is the
  specification of the WHOLE arrays read through the point's rows; the 32 row blocks tile the 2048 rows.
-/
import proofs.«171296_j4526895530498_1_alg».proof.Proof.Gen.KernelIdeal.Value
import proofs.«171296_j4526895530498_1_alg».proof.Proof.KernelBlock

noncomputable section

namespace Cert.KernelIdeal.ArrayValue

open Cert.KernelIdeal Cert.KernelIdeal.Gen Cert.KernelIdeal.BlockValue Cert.GraphSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps over the grid: the feature window and the result window are at block t along
    the graphs and at block 0 elsewhere; the four weight windows stay at block 0. -/
theorem index_maps : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## The arrays and the blocks, at their literal types -/

abbrev featArr (c : Dev nD) : FVec Ideal S2048x64x128 .f32 := V m c main_arg0
abbrev wAttArr (c : Dev nD) : FVec Ideal S128x128 .f32 := V m c main_arg1
abbrev bAttArr (c : Dev nD) : FVec Ideal S128 .f32 := V m c main_arg2
abbrev wOutArr (c : Dev nD) : FVec Ideal S10x16384 .f32 := V m c main_arg3
abbrev bOutArr (c : Dev nD) : FVec Ideal S10 .f32 := V m c main_arg4

abbrev featBlk (c : Dev nD) (t : Fin cfg0.N) : FVec Ideal S64x64x128 .f32 := iblk m c 0 t
abbrev wAttBlk (c : Dev nD) (t : Fin cfg0.N) : FVec Ideal S128x128 .f32 := iblk m c 1 t
abbrev bAttBlk (c : Dev nD) (t : Fin cfg0.N) : FVec Ideal S128 .f32 := iblk m c 2 t
abbrev wOutBlk (c : Dev nD) (t : Fin cfg0.N) : FVec Ideal S10x16384 .f32 := iblk m c 3 t
abbrev bOutBlk (c : Dev nD) (t : Fin cfg0.N) : FVec Ideal S10 .f32 := iblk m c 4 t

/-- The feature block at point t is graphs 64 t … 64 t + 63 of the feature array. -/
theorem featBlk_read (c : Dev nD) (t : Fin cfg0.N) (p n : Fin 64) (d : Fin 128) (g : Fin 2048) (hg : g.val = t.val * 64 + p.val) :
    featBlk m c t (ix3 p n d) = featArr m c (ix3 g n d) := by
  obtain ⟨e0, e1, e2, -⟩ := index_maps t
  show featArr m c (((cfg0.win 0).blk t).view.emb (ix3 p n d)) = featArr m c (ix3 g n d)
  refine congrArg (featArr m c) (funext fun a => Fin.ext ?_)
  match a with
  | ⟨0, _⟩ => show win0_0.index t (0 : Fin 3) * 64 + 1 * p.val = g.val; omega
  | ⟨1, _⟩ => show win0_0.index t (1 : Fin 3) * 64 + 1 * n.val = n.val; omega
  | ⟨2, _⟩ => show win0_0.index t (2 : Fin 3) * 128 + 1 * d.val = d.val; omega

/-- Each weight block is its whole array. -/
theorem wAttBlk_eq (c : Dev nD) (t : Fin cfg0.N) : wAttBlk m c t = wAttArr m c := by
  obtain ⟨-, -, -, e0, e1, -⟩ := index_maps t
  funext y
  show wAttArr m c (((cfg0.win 1).blk t).view.emb y) = wAttArr m c y
  refine congrArg (wAttArr m c) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem bAttBlk_eq (c : Dev nD) (t : Fin cfg0.N) : bAttBlk m c t = bAttArr m c := by
  obtain ⟨-, -, -, -, -, e0, -⟩ := index_maps t
  funext y
  show bAttArr m c (((cfg0.win 2).blk t).view.emb y) = bAttArr m c y
  refine congrArg (bAttArr m c) (funext fun a => Fin.ext ?_)
  match a with
  | ⟨0, _⟩ => show win0_2.index t (0 : Fin 1) * 128 + 1 * (y 0).val = (y 0).val; omega

theorem wOutBlk_eq (c : Dev nD) (t : Fin cfg0.N) : wOutBlk m c t = wOutArr m c := by
  obtain ⟨-, -, -, -, -, -, e0, e1, -⟩ := index_maps t
  funext y
  show wOutArr m c (((cfg0.win 3).blk t).view.emb y) = wOutArr m c y
  refine congrArg (wOutArr m c) (funext fun a => Fin.ext ?_)
  match a with
  | ⟨0, _⟩ => show win0_3.index t (0 : Fin 2) * 10 + 1 * (y 0).val = (y 0).val; omega
  | ⟨1, _⟩ => show win0_3.index t (1 : Fin 2) * 16384 + 1 * (y 1).val = (y 1).val; omega

theorem bOutBlk_eq (c : Dev nD) (t : Fin cfg0.N) : bOutBlk m c t = bOutArr m c := by
  obtain ⟨-, -, -, -, -, -, -, -, e0, -⟩ := index_maps t
  funext y
  show bOutArr m c (((cfg0.win 4).blk t).view.emb y) = bOutArr m c y
  refine congrArg (bOutArr m c) (funext fun a => Fin.ext ?_)
  match a with
  | ⟨0, _⟩ => show win0_4.index t (0 : Fin 1) * 10 + 1 * (y 0).val = (y 0).val; omega

/-! ## What a point writes back -/

/-- The result array the kernel ends with, as one function of its argument arrays. -/
abbrev result (c : Dev nD) : FVec Ideal S2048x10 .f32 :=
  batchOut (featArr m c) (wAttArr m c) (bAttArr m c) (wOutArr m c) (bOutArr m c)

/-- The body's value at the point's blocks, at (p, o), is output o of graph 64 t + p of the whole batch. -/
theorem point_value (c : Dev nD) (t : Fin cfg0.N) (p : Fin 64) (o : Fin 10) (g : Fin 2048) (hg : g.val = t.val * 64 + p.val) :
    k0_pay1 (F := Ideal) (featBlk m c t) (wAttBlk m c t) (bAttBlk m c t) (wOutBlk m c t) (bOutBlk m c t) (ix2 p o)
      = result m c (ix2 g o) := by
  rw [wAttBlk_eq, bAttBlk_eq, wOutBlk_eq, bOutBlk_eq, payload_is_batchOut]
  exact batchOut_congr (featArr m c) (featBlk m c t) _ _ _ _ g p o (fun n d => featBlk_read m c t p n d g hg)

/-- WHAT POINT t WRITES BACK is the point's row block of `result`. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero zero2]
  simp only [View.ld_unit_zero (S := S64x64x128) zero3, View.ld_unit_zero (S := S128x128) zero2, View.ld_unit_zero (S := S128) zero1,
    View.ld_unit_zero (S := S10x16384) zero2, View.ld_unit_zero (S := S10) zero1]
  obtain ⟨-, -, -, -, -, -, -, -, -, e0, e1⟩ := index_maps t
  have ht : t.val < 32 := t.isLt
  show (k0_pay1 (F := Ideal) (featBlk m c t) (wAttBlk m c t) (bAttBlk m c t) (wOutBlk m c t) (bOutBlk m c t) : S64x10.Idx → EReal)
    = fun z : S64x10.Idx => result m c (((cfg0.win 5).blk t).view.emb z)
  funext y
  obtain ⟨p, o, rfl⟩ : ∃ (p : Fin 64) (o : Fin 10), y = ix2 p o := ⟨y 0, y 1, eq_ix2 y⟩
  have hp : p.val < 64 := p.isLt
  have hemb : ((cfg0.win 5).blk t).view.emb (ix2 p o) = ix2 (⟨t.val * 64 + p.val, by omega⟩ : Fin 2048) o := by
    funext a; apply Fin.ext
    match a with
    | ⟨0, _⟩ => show win0_5.index t (0 : Fin 2) * 64 + 1 * p.val = t.val * 64 + p.val; omega
    | ⟨1, _⟩ => show win0_5.index t (1 : Fin 2) * 10 + 1 * o.val = o.val; omega
  show k0_pay1 (F := Ideal) (featBlk m c t) (wAttBlk m c t) (bAttBlk m c t) (wOutBlk m c t) (bOutBlk m c t) (ix2 p o)
    = result m c (((cfg0.win 5).blk t).view.emb (ix2 p o))
  rw [hemb]
  exact point_value m c t p o _ rfl

/-- An index of the result array is in point t's block iff each coordinate is in the block's range. -/
theorem mem_blk (t : Fin cfg0.N) (i : S2048x10.Idx) :
    i ∈ ((cfg0.win 5).blk t).view.set ↔ ∀ a : Fin 2, win0_5.index t a * S64x10.size a ≤ (i a).val ∧ (i a).val < win0_5.index t a * S64x10.size a + S64x10.size a := by
  show i ∈ ((View.whole main_v0).slice (win0_5.rect t)).set ↔ _
  rw [View.set_slice_whole, Rect.mem_set_unit]
  exact Iff.rfl

/-- Every row of the result is in some point's block: row r in point r / 64's. -/
theorem covered (i : S2048x10.Idx) : ∃ t : Fin cfg0.N, (cfg0.win 5).flush t = true ∧ i ∈ ((cfg0.win 5).blk t).view.set := by
  have hi0 : (i 0).val < 2048 := (i 0).isLt
  have hi1 : (i 1).val < 10 := (i 1).isLt
  have hN : cfg0.N = 32 := N_0
  refine ⟨⟨(i 0).val / 64, by rw [hN]; omega⟩, flush0_5 _, ?_⟩
  rw [mem_blk]
  obtain ⟨-, -, -, -, -, -, -, -, -, e0, e1⟩ := index_maps ⟨(i 0).val / 64, by rw [hN]; omega⟩
  intro a
  match a with
  | ⟨0, _⟩ =>
    show win0_5.index ⟨(i 0).val / 64, _⟩ (0 : Fin 2) * 64 ≤ (i 0).val ∧ (i 0).val < win0_5.index ⟨(i 0).val / 64, _⟩ (0 : Fin 2) * 64 + 64
    rw [e0]; show (i 0).val / 64 * 64 ≤ (i 0).val ∧ (i 0).val < (i 0).val / 64 * 64 + 64; omega
  | ⟨1, _⟩ =>
    show win0_5.index ⟨(i 0).val / 64, _⟩ (1 : Fin 2) * 10 ≤ (i 1).val ∧ (i 1).val < win0_5.index ⟨(i 0).val / 64, _⟩ (1 : Fin 2) * 10 + 10
    rw [e1]; omega

/-- THE RESULT ARRAY after the run is `result`. -/
theorem final (c : Dev nD) : (dats m 0 c).arrAt 5 cfg0.N = result m c :=
  (dats m 0 c).arrAt_eq_of_cover 5 (result m c) (fun t _ => flushed_eq m c t) covered

/-- The run, read: the result array at the specification of the argument arrays, the arguments unchanged. -/
theorem run : θ_run defs (onTc (τ := τ) (main (F := Ideal))) ⟨m, fun _ => 0, ρ⟩ fun r => ∀ c : Dev nD,
      r.2.mem ((c : Thread nD τ).loc main_v0) = batchOut (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.lean ====
/-
  A graph classifier on 2048 graphs of 64 nodes with 128 features each: per graph the Gram matrix XᵀX of the
  features, rounded to two decimals; a linear layer on the rows of the rounded matrix Q, A = Q Wᵀ + b; the
  pooled matrix Aᵀ Q; and a last linear layer on the pooled matrix read row after row, ten outputs per graph.

  The kernel walks the graphs 64 at a time and does these steps on a whole block with batched matrix
  products, laying the 64 Gram matrices out as 8192 rows for the first layer and each pooled matrix as one
  row of 16384 numbers for the last; the reference does the same steps on all 2048 graphs at once with
  einsums. On the extended reals a matrix product is the plain sum over the contracted axis, and every
  contraction of the two programs runs over the same axis in the same order, so nothing is reordered and no
  finiteness is used: both results are `Cert.GraphSpec.batchOut` of the arguments (Proof/GraphSpec.lean) —
  the reference's by reading its operations one at a time (Proof/RefIsSpec.lean), the kernel's because a
  graph's outputs depend on that graph's features and on the weights alone, so each grid point writes its
  64 rows of the whole batch's result and the 32 row blocks tile it (Proof/MatProducts.lean,
  Proof/KernelBlock.lean, Proof/BlocksToArray.lean).

  The rounding is the same function on both sides (to the nearest integer, ties to even), the scale 100 is
  the same f32 number on both sides, and the division by it is the same quotient; the ideal pass rewrote
  nothing, so the idealized kernel is the kernel's own text read on the extended reals.
-/
import proofs.«171296_j4526895530498_1_alg».proof.Defs
import proofs.«171296_j4526895530498_1_alg».proof.Proof.Gen.Kernel
import proofs.«171296_j4526895530498_1_alg».proof.Proof.Gen.Kernel.Skeleton
import proofs.«171296_j4526895530498_1_alg».proof.Proof.Gen.Kernel.Launch
import proofs.«171296_j4526895530498_1_alg».proof.Proof.Gen.Kernel.Points
import proofs.«171296_j4526895530498_1_alg».proof.Proof.Gen.Kernel.Frame
import proofs.«171296_j4526895530498_1_alg».proof.Proof.Gen.KernelIdeal
import proofs.«171296_j4526895530498_1_alg».proof.Proof.Gen.KernelIdeal.Skeleton
import proofs.«171296_j4526895530498_1_alg».proof.Proof.Gen.KernelIdeal.Launch
import proofs.«171296_j4526895530498_1_alg».proof.Proof.Gen.KernelIdeal.Points
import proofs.«171296_j4526895530498_1_alg».proof.Proof.Gen.KernelIdeal.Frame
import proofs.«171296_j4526895530498_1_alg».proof.Proof.Gen.ReferenceIdeal
import proofs.«171296_j4526895530498_1_alg».proof.Proof.Gen.KernelIdeal.Value
import proofs.«171296_j4526895530498_1_alg».proof.Proof.Gen.ReferenceIdeal.Run
import proofs.«171296_j4526895530498_1_alg».proof.Proof.Gen.ReferenceIdeal.Read
import proofs.«171296_j4526895530498_1_alg».proof.Proof.Gen.Pre_finite_inputs
import proofs.«171296_j4526895530498_1_alg».proof.Proof.RefIsSpec
import proofs.«171296_j4526895530498_1_alg».proof.Proof.BlocksToArray
import Idealize.ShloMosaic.Adequacy
import Idealize.ShloMosaic.Init

noncomputable section

namespace Cert.Proof

open Idealize.ShloMosaic Idealize.ShloMosaic.TcCoe Idealize.SL.Sem

/-- The kernel as printed runs to its end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs to its end and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the five arguments, the kernel's result array and the reference's are both
    the batch's outputs `batchOut` of those arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v16_eq _ _ _ _ _).trans (Cert.ReferenceIdeal.RefValue.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
